-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x8 : Shape := ⟨2, ![4096, 8]⟩
abbrev S2097152 : Shape := ⟨1, ![2097152]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : FVec F S4096x8 .f32) (main_arg2 : IVec S2097152 32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x8 .f32 := Host.absf main_arg1
  let main_cst_0 : FVec F S_ .f32 := constant S_ .f32 0x7F800000#32
  let main_v5 : FVec F S4096x8 .f32 := broadcastInDim S4096x8 ![] bcast_S_S4096x8 main_cst_0
  let main_v6 : IVec S4096x8 1 := cmpf .olt main_v4 main_v5
  let main_c_1 : IVec S_ 1 := constantI S_ 1 1#1
  let main_v7 : IVec S_ 1 := (fun x v => Host.reduce IntOp.andi x v reducesTo_S4096x8_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x8 : Shape := ⟨2, ![4096, 8]⟩
abbrev S2097152 : Shape := ⟨1, ![2097152]⟩
abbrev S4096 : Shape := ⟨1, ![4096]⟩
abbrev S_ : Shape := ⟨0, ![]⟩
abbrev S2097152x1 : Shape := ⟨2, ![2097152, 1]⟩
abbrev S2097152x8 : Shape := ⟨2, ![2097152, 8]⟩
abbrev S4096x4096 : Shape := ⟨2, ![4096, 4096]⟩
abbrev S8192x4096 : Shape := ⟨2, ![8192, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 18
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x8, .f32⟩
  | .hbm, ⟨2, _⟩ => ⟨S2097152, .i32⟩
  | .hbm, ⟨3, _⟩ => ⟨S4096, .f32⟩
  | .hbm, ⟨4, _⟩ => ⟨S4096x8, .bf16⟩
  | .hbm, ⟨5, _⟩ => ⟨S_, .i32⟩
  | .hbm, ⟨6, _⟩ => ⟨S2097152, .i32⟩
  | .hbm, ⟨7, _⟩ => ⟨S2097152, .i1⟩
  | .hbm, ⟨8, _⟩ => ⟨S_, .i32⟩
  | .hbm, ⟨9, _⟩ => ⟨S2097152, .i32⟩
  | .hbm, ⟨10, _⟩ => ⟨S2097152, .i32⟩
  | .hbm, ⟨11, _⟩ => ⟨S2097152, .i32⟩
  | .hbm, ⟨12, _⟩ => ⟨S2097152x1, .i32⟩
  | .hbm, ⟨13, _⟩ => ⟨S2097152x8, .bf16⟩
  | .hbm, ⟨14, _⟩ => ⟨S4096x4096, .bf16⟩
  | .hbm, ⟨15, _⟩ => ⟨S8192x4096, .f32⟩
  | .hbm, ⟨16, _⟩ => ⟨S8192x4096, .f32⟩
  | .hbm, ⟨17, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024, .f32⟩
  | .local _ .vmem, ⟨5, _⟩ => ⟨S1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S4096x4096 : S2097152x8.ShapeCasts S4096x4096
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S8192x4096_S4x2048x4096 : S8192x4096.ShapeCasts S4x2048x4096
  gather_S4096x8_S2097152x1_S2097152x8_1_0_n_n_0_1_18_wf : GatherDims.WF S4096x8 S2097152x1 S2097152x8 [1] [0] [] [0] [] 1 ![1, 8]
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S4096x8_S2097152x1_S2097152x8_1_0_n_n_0_1_18 : GatherDims S4096x8 S2097152x1 S2097152x8 where
  offsetDims := [1]
  collapsedSliceDims := [0]
  operandBatchingDims := []
  startIndicesBatchingDims := []
  startIndexMap := [0]
  indexVectorDim := 1
  sliceSizes := ![1, 8]
  wf := gather_S4096x8_S2097152x1_S2097152x8_1_0_n_n_0_1_18_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v9) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x8 : Shape := ⟨2, ![4096, 8]⟩
abbrev S2097152 : Shape := ⟨1, ![2097152]⟩
abbrev S4096 : Shape := ⟨1, ![4096]⟩
abbrev S_ : Shape := ⟨0, ![]⟩
abbrev S2097152x1 : Shape := ⟨2, ![2097152, 1]⟩
abbrev S2097152x8 : Shape := ⟨2, ![2097152, 8]⟩
abbrev S16777216 : Shape := ⟨1, ![16777216]⟩
abbrev S4096x4096 : Shape := ⟨2, ![4096, 4096]⟩
abbrev S1x1x4096 : Shape := ⟨3, ![1, 1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x8, .f32⟩
  | .hbm, ⟨2, _⟩ => ⟨S2097152, .i32⟩
  | .hbm, ⟨3, _⟩ => ⟨S4096, .f32⟩
  | .hbm, ⟨4, _⟩ => ⟨S_, .i32⟩
  | .hbm, ⟨5, _⟩ => ⟨S2097152, .i32⟩
  | .hbm, ⟨6, _⟩ => ⟨S2097152, .i1⟩
  | .hbm, ⟨7, _⟩ => ⟨S_, .i32⟩
  | .hbm, ⟨8, _⟩ => ⟨S2097152, .i32⟩
  | .hbm, ⟨9, _⟩ => ⟨S2097152, .i32⟩
  | .hbm, ⟨10, _⟩ => ⟨S2097152, .i32⟩
  | .hbm, ⟨11, _⟩ => ⟨S2097152x1, .i32⟩
  | .hbm, ⟨12, _⟩ => ⟨S2097152x8, .f32⟩
  | .hbm, ⟨13, _⟩ => ⟨S16777216, .f32⟩
  | .hbm, ⟨14, _⟩ => ⟨S4096x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S2097152_S2097152x1_0 : S2097152.BroadcastsInDim S2097152x1 (![0] : Fin 1 → Fin S2097152x1.rank)
  shapeCasts_S2097152x8_S16777216 : S2097152x8.ShapeCasts S16777216
  shapeCasts_S16777216_S4096x4096 : S16777216.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4096x8_S2097152x1_S2097152x8_1_0_n_n_0_1_18_wf : GatherDims.WF S4096x8 S2097152x1 S2097152x8 [1] [0] [] [0] [] 1 ![1, 8]
  dot_S4x2048x4096_S4096x4096_S4x2048x4096_2_1_01_0_n_n_wf : DotDims.WF S4x2048x4096 S4096x4096 S4x2048x4096 [2] [1] [0, 1] [0] [] []

variable [Facts₀]

def gather_S4096x8_S2097152x1_S2097152x8_1_0_n_n_0_1_18 : GatherDims S4096x8 S2097152x1 S2097152x8 where
  offsetDims := [1]
  collapsedSliceDims := [0]
  operandBatchingDims := []
  startIndicesBatchingDims := []
  startIndexMap := [0]
  indexVectorDim := 1
  sliceSizes := ![1, 8]
  wf := gather_S4096x8_S2097152x1_S2097152x8_1_0_n_n_0_1_18_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Steps.lean ====
/-
  What one grid step of the matmul kernel leaves behind, case by case, as values.

  The kernel keeps a 1024×1024 accumulator in scratch across the four k-steps of an output tile.
    first k-step  : the accumulator is zeroed, read back, and the step's tile product is added to it;
    middle k-steps: the step's tile product is added to what the step before left;
    last k-step   : the same, and then the accumulator, read back, plus the bias row goes to the output tile.
  Each statement below reads the stores the body's run found back as the body's own arithmetic terms
  (the payloads), so that the induction over the grid works with plain functions.
-/
import proofs.«154323_j56427280335117_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Steps

open Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a <;> rfl

/-- A middle k-step leaves in the accumulator: what it held, plus the product of the step's two tiles. -/
theorem acc_mid (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : ¬cond0_1 i)
    (x0 : Vec F S1024x1024 .f32) (x1 : Vec F S1024x1024 .bf16) (x2 : Vec F S1024 .f32) (xs0 : Vec F S1024x1024 .f32) :
    sout0_B_0 c i a3 h3 a4 h4 a5 h5 a6 h6 a7 h7 hc0 hc1 x0 x1 x2 xs0 = k0_pay2 x0 x1 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h7.read_unread, View.ld_unit_zero (S := S1024x1024) hz]

/-- The first k-step leaves in the accumulator: the zero tile it has just stored, plus the product of the step's two tiles. -/
theorem acc_first (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024 .f32) (h5 : a5.IsWhole)
    (a6 : Memref sig .tc .vmem S1024x1024 .f32) (h6 : a6.IsWhole) (a7 : Memref sig .tc .vmem S1024x1024 .f32) (h7 : a7.IsWhole)
    (hc0 : cond0_0 i) (hc1 : ¬cond0_1 i)
    (x0 : Vec F S1024x1024 .f32) (x1 : Vec F S1024x1024 .bf16) (x2 : Vec F S1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) hz]
  simp only [View.readAt_eq_ld, h3.read_unread, h4.read_unread, View.ld_unit_zero (S := S1024x1024) hz,
    View.readCov_unit_zero (S := S1024x1024) _ hz]

/-- The last k-step leaves in the accumulator what a middle one does; -/
theorem acc_last (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x1024 .f32) (x1 : Vec F S1024x1024 .bf16) (x2 : Vec F S1024 .f32) (xs0 : Vec F S1024x1024 .f32) :
    sout0_C_0 c i a3 h3 a4 h4 a5 h5 a6 h6 a7 h7 hc0 hc1 x0 x1 x2 xs0 = k0_pay2 x0 x1 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h7.read_unread, View.ld_unit_zero (S := S1024x1024) hz]

/-- and in the output tile: that accumulator, read back, plus the bias row on every row. -/
theorem out_last (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024 .f32) (h5 : a5.IsWhole)
    (a6 : Memref sig .tc .vmem S1024x1024 .f32) (h6 : a6.IsWhole) (a7 : Memref sig .tc .vmem S1024x1024 .f32) (h7 : a7.IsWhole)
    (hc0 : ¬cond0_0 i) (hc1 : cond0_1 i)
    (x0 : Vec F S1024x1024 .f32) (x1 : Vec F S1024x1024 .bf16) (x2 : Vec F S1024 .f32) (xs0 : Vec F S1024x1024 .f32) :
    out0_C_3 c i a3 h3 a4 h4 a5 h5 a6 h6 a7 h7 hc0 hc1 x0 x1 x2 xs0 = k0_pay3 x2 (k0_pay2 x0 x1 xs0) := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.ld_unit_zero (S := S1024x1024) hz, View.ld_unit_zero (S := S1024) hz1,
    View.readCov_unit_zero (S := S1024x1024) _ hz]

end Cert.KernelIdeal.Steps

end
-- ==== Proof.Arith.lean ====
/-
  The kernel body's arithmetic, element by element, over the extended reals.

    the zero tile           : 0 everywhere;
    one k-step's update     : (p, q) ↦ acc (p, q) + ∑ₖ a (p, k) · b (q, k)  — the step's x tile times the transposed
                              weight tile (both operands are contracted along their second axis; the narrowing of
                              the x tile to bf16 is the identity on values here), added to the accumulator;
    the last step's output  : (p, q) ↦ acc (p, q) + bias q.
-/
import proofs.«154323_j56427280335117_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Arith

open Cert.KernelIdeal Cert.KernelIdeal.Gen

/-- The tile the first k-step stores into the accumulator is zero. -/
theorem zero_tile_apply (j : S1024x1024.Idx) : (k0_pay1 (F := Ideal) j : EReal) = 0 := by
  unfold k0_pay1
  rw [shapeCast_self]
  show Ideal.ofBits .f32 0x00000000#32 = 0
  exact Ideal.ofBits_zero_f32

/-! The matrix product's operand indices: the result's row picks the left operand's row, the result's column the
    right operand's ROW, and the contraction runs along both operands' second axis. -/

theorem lhs_axis0 (j : S1024x1024.Idx) (q : dot_S1024x1024_S1024x1024_S1024x1024_1_1_0_0_n_n.contr.Idx) :
    (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_axis1 (j : S1024x1024.Idx) (q : dot_S1024x1024_S1024x1024_S1024x1024_1_1_0_0_n_n.contr.Idx) :
    (dot_S1024x1024_S1024x1024_S1024x1024_1_1_0_0_n_n.lhsIdx j q 1).val = (q ⟨0, by decide⟩).val :=
  dot_S1024x1024_S1024x1024_S1024x1024_1_1_0_0_n_n.lhsIdx_val_of_single rfl j q
theorem rhs_axis0 (j : S1024x1024.Idx) (q : dot_S1024x1024_S1024x1024_S1024x1024_1_1_0_0_n_n.contr.Idx) :
    (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_axis1 (j : S1024x1024.Idx) (q : dot_S1024x1024_S1024x1024_S1024x1024_1_1_0_0_n_n.contr.Idx) :
    (dot_S1024x1024_S1024x1024_S1024x1024_1_1_0_0_n_n.rhsIdx j q 1).val = (q ⟨0, by decide⟩).val :=
  dot_S1024x1024_S1024x1024_S1024x1024_1_1_0_0_n_n.rhsIdx_val_of_single rfl j q

/-- One k-step's update of the accumulator, at row `p` and column `q`. -/
theorem step_apply (a : S1024x1024.Idx → EReal) (b : S1024x1024.Idx → EReal) (acc : S1024x1024.Idx → EReal)
    (p q : Fin 1024) :
    (k0_pay2 (F := Ideal) a b acc (ix2 p q) : EReal) = acc (ix2 p q) + ∑ k : Fin 1024, a (ix2 p k) * b (ix2 q k) := by
  unfold k0_pay2
  rw [shapeCast_self, shapeCast_self, shapeCast_self]
  show acc (ix2 p q) + FloatOps.matmul (F := Ideal) dot_S1024x1024_S1024x1024_S1024x1024_1_1_0_0_n_n none
    (truncf (F := Ideal) .bf16 a bitsLt_bf16_f32) b (constant (F := Ideal) S1024x1024 .f32 0x00000000#32) (ix2 p q) = _
  rw [Ideal.matmul_constant_zero_apply, ← Equiv.sum_comp (contrEquiv1 dot_S1024x1024_S1024x1024_S1024x1024_1_1_0_0_n_n 1024 rfl rfl).symm]
  refine congrArg (acc (ix2 p q) + ·) (Finset.sum_congr rfl fun k _ => ?_)
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun x => Fin.ext (by
    match x with
    | ⟨0, _⟩ => exact lhs_axis0 _ _
    | ⟨1, _⟩ => exact (lhs_axis1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun x => Fin.ext (by
    match x with
    | ⟨0, _⟩ => exact rhs_axis0 _ _
    | ⟨1, _⟩ => exact (rhs_axis1 _ _).trans hk)
  rw [el, er]
  rfl

/-- The last k-step's output tile, at row `p` and column `q`: the accumulator plus the bias of the column. -/
theorem out_apply (bias : S1024.Idx → EReal) (acc : S1024x1024.Idx → EReal) (p q : Fin 1024) :
    (k0_pay3 (F := Ideal) bias acc (ix2 p q) : EReal) = acc (ix2 p q) + bias (ix1 q) := by
  unfold k0_pay3
  refine (addf_apply (s := S1024x1024) (φ := .f32) _ _ (ix2 p q)).trans ?_
  rw [broadcastTo_apply _ broadcasts_S1x1024_S1024x1024 (ix2 p q) (ix2 (0 : Fin 1) q) (fun x => by
    match x with
    | ⟨0, _⟩ => show (0 : ℕ) = if (1 : ℕ) = 1 then 0 else _; rw [if_pos rfl]
    | ⟨1, _⟩ => show q.val = if (1024 : ℕ) = 1 then 0 else q.val; rw [if_neg (by decide)])]
  rw [shapeCast_apply bias shapeCasts_S1024_S1x1024 (ix2 (0 : Fin 1) q) (ix1 q) (by
    rw [Shape.rowMajor_val_one, Shape.rowMajor_val_two]; show q.val = 0 * 1024 + q.val; omega)]

end Cert.KernelIdeal.Arith

end
-- ==== Proof.TiledSum.lean ====
/-
  The one algebraic law of this certificate, over any commutative additive monoid (read at the extended reals):
  a sum over the 4096 columns of a row is the sum of its four consecutive tiles of 1024 columns, and the
  kernel's running sum — `0 + s₀`, then `+ s₁`, `+ s₂`, `+ s₃` — is the sum of the tiles reached so far.
  Only associativity and commutativity of `+` and `0 + a = a` are used: no distributivity, no cancelling,
  so nothing here asks the summands to be finite.
-/
import Mathlib.Algebra.BigOperators.Fin
import Mathlib.Algebra.BigOperators.Group.Finset.Basic
import Mathlib.Logic.Equiv.Fin.Basic

namespace Cert.TiledSum

/-- Column `1024 * j + kk` of a row of 4096: column `kk` of tile `j` (for `j < 4`; the remainder keeps the
    definition total in `j`, and is the identity there). -/
def col (j : ℕ) (kk : Fin 1024) : Fin 4096 := ⟨(1024 * j + kk.val) % 4096, Nat.mod_lt _ (by omega)⟩

theorem col_val (j : ℕ) (hj : j < 4) (kk : Fin 1024) : (col j kk).val = 1024 * j + kk.val := by
  have := kk.isLt
  show (1024 * j + kk.val) % 4096 = _
  omega

/-- Row `1024 * a + p` of 8192 rows: row `p` of row-tile `a` (for `a < 8`; total in `a` by the remainder). -/
def row8 (a : ℕ) (p : Fin 1024) : Fin 8192 := ⟨(1024 * a + p.val) % 8192, Nat.mod_lt _ (by omega)⟩

theorem row8_val (a : ℕ) (ha : a < 8) (p : Fin 1024) : (row8 a p).val = 1024 * a + p.val := by
  have := p.isLt
  show (1024 * a + p.val) % 8192 = _
  omega

/-- The pairs (tile, column in the tile) are the 4096 columns. -/
def tileEquiv : Fin 4 × Fin 1024 ≃ Fin 4096 where
  toFun p := ⟨1024 * p.1.val + p.2.val, by have := p.1.isLt; have := p.2.isLt; omega⟩
  invFun k := (⟨k.val / 1024, by have := k.isLt; omega⟩, ⟨k.val % 1024, Nat.mod_lt _ (by omega)⟩)
  left_inv p := by
    obtain ⟨a, b⟩ := p
    have ha := a.isLt; have hb := b.isLt
    refine Prod.ext (Fin.ext ?_) (Fin.ext ?_)
    · show (1024 * a.val + b.val) / 1024 = a.val; omega
    · show (1024 * a.val + b.val) % 1024 = b.val; omega
  right_inv k := by
    apply Fin.ext
    show 1024 * (k.val / 1024) + k.val % 1024 = k.val
    omega

variable {M : Type*} [AddCommMonoid M]

/-- A row's sum, tile by tile. -/
theorem sum_eq_sum_tiles (f : Fin 4096 → M) :
    ∑ k : Fin 4096, f k = ∑ j ∈ Finset.range 4, ∑ kk : Fin 1024, f (col j kk) := by
  rw [← Equiv.sum_comp tileEquiv f, Fintype.sum_prod_type, Finset.sum_range]
  refine Finset.sum_congr rfl fun a _ => Finset.sum_congr rfl fun b _ => congrArg f (Fin.ext ?_)
  rw [col_val a.val a.isLt b]
  rfl

/-- The running sum after tile `n`, as the kernel forms it: `0 + s₀` at the first tile, the sum so far plus the
    tile's own sum afterwards. -/
theorem zero_add_tile (s : ℕ → M) : (0 : M) + s 0 = ∑ j ∈ Finset.range (0 + 1), s j := by
  rw [zero_add, Finset.sum_range_one]

theorem add_tile (s : ℕ → M) (n : ℕ) :
    (∑ j ∈ Finset.range (n + 1), s j) + s (n + 1) = ∑ j ∈ Finset.range (n + 1 + 1), s j :=
  (Finset.sum_range_succ s (n + 1)).symm

end Cert.TiledSum
-- ==== Proof.Accum.lean ====
/-
  The accumulator across the grid, over the extended reals.

  The grid is 8 × 4 × 4, walked row-major: point `t` works on row-tile `t / 16` of x, on row-tile `t / 4 % 4` of the
  weight matrix (an output column-tile), and on k-tile `t % 4` of both. After point `t` the accumulator holds, at
  (p, q), the sum over the k-tiles `0 … t % 4` of  ∑ₖ x (row, k) · w (col, k)  — by induction on the point: a first
  k-step starts from the zero tile, every other step adds its tile product to what the step before left. At a last
  k-step the output tile is that sum, now over all 4096 columns, plus the bias of the column.
-/
import proofs.«154323_j56427280335117_1_alg».proof.Proof.Steps
import proofs.«154323_j56427280335117_1_alg».proof.Proof.Arith
import proofs.«154323_j56427280335117_1_alg».proof.Proof.TiledSum

noncomputable section

open Idealize.ShloMosaic Idealize.ShloMosaic.TcCoe Idealize.SL.Sem Idealize.ShloMosaic.ValueIdx

namespace Cert.KernelIdeal.Accum

open Cert.KernelIdeal Cert.KernelIdeal.Gen Cert.TiledSum

variable (m : (ℓ : Loc nD τ sig) → Buf (Elt Ideal) ℓ)

/-- The three arrays the kernel reads, as the region finds them: x flattened to 8192 rows, the weight matrix, the bias. -/
abbrev xArr (c : Dev nD) : S8192x4096.Idx → EReal := V m c main_v9
abbrev wArr (c : Dev nD) : S4096x4096.Idx → EReal := V m c main_v8
abbrev bArr (c : Dev nD) : S4096.Idx → EReal := V m c main_arg3
/-- Their tiles at grid point `t`. -/
abbrev xTile (c : Dev nD) (t : Fin cfg0.N) : S1024x1024.Idx → EReal := iblk m c 0 t
abbrev wTile (c : Dev nD) (t : Fin cfg0.N) : S1024x1024.Idx → EReal := iblk m c 1 t
abbrev bTile (c : Dev nD) (t : Fin cfg0.N) : S1024.Idx → EReal := iblk m c 2 t

/-- Which tile each window is on at point `t`, decided over the 128 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 1) = t.val / 4 % 4
    ∧ win0_3.index t (0 : Fin 2) = t.val / 16 ∧ win0_3.index t (1 : Fin 2) = t.val / 4 % 4 :=
  (by decide +kernel : ∀ t : Fin grid0.N, _)

theorem lt_N (t : Fin cfg0.N) : t.val < 128 := lt_of_lt_of_eq t.isLt (show cfg0.N = 128 from N_0)

/-- The x tile at point `t` is rows `1024 (t / 16) …`, columns `1024 (t % 4) …` of x. -/
theorem xTile_apply (c : Dev nD) (t : Fin cfg0.N) (p k : Fin 1024) :
    xTile m c t (ix2 p k) = xArr m c (ix2 (row8 (t.val / 16) p) (col (t.val % 4) k)) := by
  obtain ⟨e0, e1, -⟩ := idx_facts t
  have hN := lt_N t
  have hp := p.isLt; have hk := k.isLt
  show iblk m c 0 t (ix2 p k) = V m c main_v9 _
  unfold iblk
  rw [View.read_apply]
  show V m c main_v9 _ = V m c main_v9 _
  refine congrArg (V m c main_v9) (funext fun a => Fin.ext ?_)
  match a with
  | ⟨0, _⟩ => show win0_0.index t (0 : Fin 2) * 1024 + 1 * p.val = (1024 * (t.val / 16) + p.val) % 8192; rw [e0]; omega
  | ⟨1, _⟩ => show win0_0.index t (1 : Fin 2) * 1024 + 1 * k.val = (1024 * (t.val % 4) + k.val) % 4096; rw [e1]; omega

/-- The weight tile at point `t` is rows `1024 (t / 4 % 4) …`, columns `1024 (t % 4) …` of the weight matrix. -/
theorem wTile_apply (c : Dev nD) (t : Fin cfg0.N) (q k : Fin 1024) :
    wTile m c t (ix2 q k) = wArr m c (ix2 (col (t.val / 4 % 4) q) (col (t.val % 4) k)) := by
  obtain ⟨-, -, e2, e3, -⟩ := idx_facts t
  have hN := lt_N t
  have hq := q.isLt; have hk := k.isLt
  show iblk m c 1 t (ix2 q k) = V m c main_v8 _
  unfold iblk
  rw [View.read_apply]
  show V m c main_v8 _ = V m c main_v8 _
  refine congrArg (V m c main_v8) (funext fun a => Fin.ext ?_)
  match a with
  | ⟨0, _⟩ => show win0_1.index t (0 : Fin 2) * 1024 + 1 * q.val = (1024 * (t.val / 4 % 4) + q.val) % 4096; rw [e2]; omega
  | ⟨1, _⟩ => show win0_1.index t (1 : Fin 2) * 1024 + 1 * k.val = (1024 * (t.val % 4) + k.val) % 4096; rw [e3]; omega

/-- The bias tile at point `t` is entries `1024 (t / 4 % 4) …` of the bias. -/
theorem bTile_apply (c : Dev nD) (t : Fin cfg0.N) (q : Fin 1024) :
    bTile m c t (ix1 q) = bArr m c (ix1 (col (t.val / 4 % 4) q)) := by
  obtain ⟨-, -, -, -, e4, -⟩ := idx_facts t
  have hN := lt_N t
  have hq := q.isLt
  show iblk m c 2 t (ix1 q) = V m c main_arg3 _
  unfold iblk
  rw [View.read_apply]
  show V m c main_arg3 _ = V m c main_arg3 _
  refine congrArg (V m c main_arg3) (funext fun a => Fin.ext ?_)
  match a with
  | ⟨0, _⟩ => show win0_2.index t (0 : Fin 1) * 1024 + 1 * q.val = (1024 * (t.val / 4 % 4) + q.val) % 4096; rw [e4]; omega

/-- One k-tile's share of the product at (row `r` of x, row `w` of the weight matrix): the sum over the tile's columns. -/
def tile (c : Dev nD) (r : Fin 8192) (w : Fin 4096) (j : ℕ) : EReal :=
  ∑ kk : Fin 1024, xArr m c (ix2 r (col j kk)) * wArr m c (ix2 w (col j kk))

/-- The product of the two tiles at point `t`, at (p, q), is that share for k-tile `t % 4`. -/
theorem tiles_prod (c : Dev nD) (t : Fin cfg0.N) (p q : Fin 1024) :
    ∑ k : Fin 1024, xTile m c t (ix2 p k) * wTile m c t (ix2 q k)
      = tile m c (row8 (t.val / 16) p) (col (t.val / 4 % 4) q) (t.val % 4) :=
  Finset.sum_congr rfl fun k _ => by rw [xTile_apply, wTile_apply]

/-- After a FIRST k-step the accumulator is zero plus the step's share. -/
theorem acc_at_first (c : Dev nD) (t : Fin cfg0.N) (h0 : t.val % 4 = 0) (p q : Fin 1024) :
    ((outsAt0 m c t.val t.isLt).2 (ix2 p q) : EReal)
      = 0 + tile m c (row8 (t.val / 16) p) (col (t.val / 4 % 4) q) (t.val % 4) := by
  have h1 : ¬t.val % 4 = 3 := by omega
  rw [outsAt0_A m c t h0 h1]
  dsimp only
  refine (congrFun (Steps.acc_first (F := Ideal) c (grid0.coords t) (ms0_0 t) (hs0_0 t) (ms0_1 t) (hs0_1 t) (ms0_2 t) (hs0_2 t)
    (ms0_3 t) (hs0_3 t) scM0_0 (Memref.isWhole_whole _) ((hcond0_0 t).mpr h0) (fun h => h1 ((hcond0_1 t).mp h))
    (iblk m c 0 t) (iblk m c 1 t) (iblk m c 2 t)) (ix2 p q)).trans ?_
  refine (Arith.step_apply (xTile m c t) (wTile m c t) (k0_pay1 (F := Ideal)) p q).trans ?_
  rw [Arith.zero_tile_apply, tiles_prod]

/-- After any OTHER k-step it is what the step before left plus the step's share. -/
theorem acc_at_next (c : Dev nD) (t : Fin cfg0.N) (h0 : ¬t.val % 4 = 0) (p q : Fin 1024) :
    ((outsAt0 m c t.val t.isLt).2 (ix2 p q) : EReal)
      = (outsAt0 m c (t.val - 1) (Nat.lt_of_le_of_lt (Nat.sub_le _ _) t.isLt)).2 (ix2 p q)
        + tile m c (row8 (t.val / 16) p) (col (t.val / 4 % 4) q) (t.val % 4) := by
  by_cases h1 : t.val % 4 = 3
  · rw [outsAt0_C m c t h0 h1]
    dsimp only
    refine (congrFun (Steps.acc_last (F := Ideal) c (grid0.coords t) (ms0_0 t) (hs0_0 t) (ms0_1 t) (hs0_1 t) (ms0_2 t) (hs0_2 t)
      (ms0_3 t) (hs0_3 t) scM0_0 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2) (ix2 p q)).trans ?_
    refine (Arith.step_apply (xTile m c t) (wTile m c t)
      (outsAt0 m c (t.val - 1) (Nat.lt_of_le_of_lt (Nat.sub_le _ _) t.isLt)).2 p q).trans ?_
    rw [tiles_prod]
  · rw [outsAt0_B m c t h0 h1]
    dsimp only
    refine (congrFun (Steps.acc_mid (F := Ideal) c (grid0.coords t) (ms0_0 t) (hs0_0 t) (ms0_1 t) (hs0_1 t) (ms0_2 t) (hs0_2 t)
      (ms0_3 t) (hs0_3 t) scM0_0 (Memref.isWhole_whole _) (fun h => h0 ((hcond0_0 t).mp h)) (fun h => h1 ((hcond0_1 t).mp h))
      (iblk m c 0 t) (iblk m c 1 t) (iblk m c 2 t)
      (outsAt0 m c (t.val - 1) (Nat.lt_of_le_of_lt (Nat.sub_le _ _) t.isLt)).2) (ix2 p q)).trans ?_
    refine (Arith.step_apply (xTile m c t) (wTile m c t)
      (outsAt0 m c (t.val - 1) (Nat.lt_of_le_of_lt (Nat.sub_le _ _) t.isLt)).2 p q).trans ?_
    rw [tiles_prod]

/-- At a LAST k-step the output tile is the accumulator the step leaves, plus the bias of the column. -/
theorem out_at_last (c : Dev nD) (t : Fin cfg0.N) (h1 : t.val % 4 = 3) (p q : Fin 1024) :
    ((outsAt0 m c t.val t.isLt).1 (ix2 p q) : EReal)
      = (outsAt0 m c t.val t.isLt).2 (ix2 p q) + bTile m c t (ix1 q) := by
  have h0 : ¬t.val % 4 = 0 := by omega
  rw [outsAt0_C m c t h0 h1]
  dsimp only
  refine (congrFun (Steps.out_last (F := Ideal) c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) ((hcond0_1 t).mpr h1)
    (iblk m c 0 t) (iblk m c 1 t) (iblk m c 2 t)
    (outsAt0 m c (t.val - 1) (Nat.lt_of_le_of_lt (Nat.sub_le _ _) t.isLt)).2) (ix2 p q)).trans ?_
  refine (Arith.out_apply (bTile m c t) _ p q).trans ?_
  refine congrArg (· + bTile m c t (ix1 q)) ?_
  exact (congrFun (Steps.acc_last (F := Ideal) c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) ((hcond0_1 t).mpr h1)
    (iblk m c 0 t) (iblk m c 1 t) (iblk m c 2 t)
    (outsAt0 m c (t.val - 1) (Nat.lt_of_le_of_lt (Nat.sub_le _ _) t.isLt)).2) (ix2 p q)).symm

/-- THE RUNNING SUM: after point `n` the accumulator holds the shares of the k-tiles `0 … n % 4`. -/
theorem acc_closed (c : Dev nD) : ∀ (n : ℕ) (hn : n < cfg0.N) (p q : Fin 1024),
    ((outsAt0 m c n hn).2 (ix2 p q) : EReal)
      = ∑ j ∈ Finset.range (n % 4 + 1), tile m c (row8 (n / 16) p) (col (n / 4 % 4) q) j
  | 0, hn, p, q => by
    refine (acc_at_first m c ⟨0, hn⟩ rfl p q).trans ?_
    exact zero_add_tile (tile m c (row8 (0 / 16) p) (col (0 / 4 % 4) q))
  | n + 1, hn, p, q => by
    by_cases h0 : (n + 1) % 4 = 0
    · refine (acc_at_first m c ⟨n + 1, hn⟩ h0 p q).trans ?_
      show 0 + tile m c (row8 ((n + 1) / 16) p) (col ((n + 1) / 4 % 4) q) ((n + 1) % 4) = _
      rw [h0]
      exact zero_add_tile (tile m c (row8 ((n + 1) / 16) p) (col ((n + 1) / 4 % 4) q))
    · refine (acc_at_next m c ⟨n + 1, hn⟩ h0 p q).trans ?_
      show (outsAt0 m c (n + 1 - 1) _).2 (ix2 p q) + tile m c (row8 ((n + 1) / 16) p) (col ((n + 1) / 4 % 4) q) ((n + 1) % 4) = _
      have e1 : (n + 1) / 16 = n / 16 := by omega
      have e2 : (n + 1) / 4 % 4 = n / 4 % 4 := by omega
      have e3 : (n + 1) % 4 = n % 4 + 1 := by omega
      rw [e1, e2, e3]
      have ih := acc_closed c n (Nat.lt_of_succ_lt hn) p q
      show (outsAt0 m c n _).2 (ix2 p q) + _ = _
      rw [ih]
      exact add_tile (tile m c (row8 (n / 16) p) (col (n / 4 % 4) q)) (n % 4)

/-- THE OUTPUT TILE at a last k-step: the whole row-by-row product, over all 4096 columns, plus the bias. -/
theorem out_closed (c : Dev nD) (t : Fin cfg0.N) (h1 : t.val % 4 = 3) (p q : Fin 1024) :
    ((outsAt0 m c t.val t.isLt).1 (ix2 p q) : EReal)
      = (∑ k : Fin 4096, xArr m c (ix2 (row8 (t.val / 16) p) k) * wArr m c (ix2 (col (t.val / 4 % 4) q) k))
        + bArr m c (ix1 (col (t.val / 4 % 4) q)) := by
  rw [out_at_last m c t h1 p q, acc_closed m c t.val t.isLt p q, h1, bTile_apply,
    sum_eq_sum_tiles (fun k => xArr m c (ix2 (row8 (t.val / 16) p) k) * wArr m c (ix2 (col (t.val / 4 % 4) q) k))]
  rfl

end Cert.KernelIdeal.Accum

end
-- ==== Proof.Linear.lean ====
/-
  The function both programs compute, index by index, over the extended reals: a linear layer
      out (b, s, o) = ∑ᵢ x (b, s, i) · w (o, i) + bias o
  over x : [4, 2048, 4096], a weight matrix w : [4096, 4096] stored [out, in] (so the product is with wᵀ), and
  bias : [4096]. Where w comes from (a codebook lookup) does not matter here: it is an argument.
-/
import Idealize.ShloMosaic.Lib.ValueIdx

noncomputable section

open Idealize.ShloMosaic Idealize.ShloMosaic.ValueIdx

namespace Cert.Linear

abbrev SX : Shape := ⟨3, ![4, 2048, 4096]⟩
abbrev SW : Shape := ⟨2, ![4096, 4096]⟩
abbrev SB : Shape := ⟨1, ![4096]⟩

/-- `x @ wᵀ + bias`, element by element. -/
def linear (x : SX.Idx → EReal) (w : SW.Idx → EReal) (bias : SB.Idx → EReal) : SX.Idx → EReal :=
  fun i => (∑ k : Fin 4096, x (ix3 (i 0) (i 1) k) * w (ix2 (i 2) k)) + bias (ix1 (i 2))

theorem linear_apply (x : SX.Idx → EReal) (w : SW.Idx → EReal) (bias : SB.Idx → EReal) (b : Fin 4) (s : Fin 2048) (o : Fin 4096) :
    linear x w bias (ix3 b s o) = (∑ k : Fin 4096, x (ix3 b s k) * w (ix2 o k)) + bias (ix1 o) := rfl

end Cert.Linear

end
-- ==== Proof.Result.lean ====
/-
  The kernel's result, read off its run.

  Every output tile is written back once, at the last k-step of its (row-tile, column-tile) pair, and the 32 tiles
  cover the [8192, 4096] result; so the result array ends holding, at (r, o),  ∑ₖ x₂ (r, k) · w (o, k) + bias o,
  where x₂ is x flattened to 8192 rows and w the weight matrix the host lines before the call reconstruct. The one
  host line after the call reshapes it to [4, 2048, 4096]: row `2048 b + s` becomes (b, s). That is the linear layer
  of `Linear.lean`.
-/
import proofs.«154323_j56427280335117_1_alg».proof.Proof.Accum
import proofs.«154323_j56427280335117_1_alg».proof.Proof.Linear
import Idealize.ShloMosaic.Lib.StableHlo.Run
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Accum Cert.TiledSum Cert.Linear

/-! ## The arrays the region finds, from the arguments -/

section Host
variable {F : FTy → Type} [FloatOps F]

/-- The weight matrix the host lines before the call build: the codebook narrowed to bf16, its rows looked up at the
    indices (a negative index counted from the end), the [2097152, 8] lookup laid out as [4096, 4096]. -/
def weights (x1 : (⟨S4096x8, .f32⟩ : BufTy).Contents (Elt F)) (x2 : (⟨S2097152, .i32⟩ : BufTy).Contents (Elt F)) :
    (⟨S4096x4096, .bf16⟩ : BufTy).Contents (Elt F) :=
  shapeCast S4096x4096 (Host.gather gather_S4096x8_S2097152x1_S2097152x8_1_0_n_n_0_1_18 (truncf .bf16 x1 bitsLt_bf16_f32)
    (broadcastInDim S2097152x1 ![0] bcast_S2097152_S2097152x1_0
      (select (cmpi .slt x2 (broadcastInDim S2097152 ![] bcast_S_S2097152 (constantI S_ 32 0#32)))
        (addi x2 (broadcastInDim S2097152 ![] bcast_S_S2097152 (constantI S_ 32 4096#32))) x2)))
    shapeCasts_S2097152x8_S4096x4096

variable (m : (ℓ : Loc nD τ sig) → Buf (Elt F) ℓ)

theorem found_x (c : Dev nD) :
    V m c main_v9 = shapeCast S8192x4096 (m ((c.tc : Thread nD τ).loc main_arg0)) shapeCasts_S4x2048x4096_S8192x4096 := by
  show StableHlo.after hostOps0 (fun b => m (c, b)) (Proc.devRef .tc main_v9) = _
  after_results
  rfl

theorem found_w (c : Dev nD) :
    V m c main_v8 = weights (m ((c.tc : Thread nD τ).loc main_arg1)) (m ((c.tc : Thread nD τ).loc main_arg2)) := by
  show StableHlo.after hostOps0 (fun b => m (c, b)) (Proc.devRef .tc main_v8) = _
  after_results
  rfl

end Host

variable (m : (ℓ : Loc nD τ sig) → Buf (Elt Ideal) ℓ) (ρ : Dev nD → PrngReg)

/-! ## The result array of the call -/

/-- The linear layer on the flattened x: row `r` of x₂ against row `o` of the weight matrix, plus the bias. -/
def lin2 (x : S8192x4096.Idx → EReal) (w : S4096x4096.Idx → EReal) (b : S4096.Idx → EReal) : S8192x4096.Idx → EReal :=
  fun i => (∑ k : Fin 4096, x (ix2 (i 0) k) * w (ix2 (i 1) k)) + b (ix1 (i 1))

/-- What a last k-step writes back is its tile of that function. -/
theorem flushed_eq (c : Dev nD) (t : Fin cfg0.N) (hf : (cfg0.win 3).flush t = true) :
    (dats m 0 c).flushed 3 t = ((cfg0.win 3).blk t).view.read (Elt Ideal) (lin2 (xArr m c) (wArr m c) (bArr m c)) := by
  have h1 : t.val % 4 = 3 := (flush0_3 t).mp hf
  obtain ⟨-, -, -, -, -, e5, e6⟩ := idx_facts t
  have hN := lt_N t
  show (cfg0.win 3).cut (grid0.coords t) ((dats m 0 c).after 3 t) = _
  rw [after0_3]
  funext j
  obtain ⟨p, q, rfl⟩ : ∃ (p q : Fin 1024), j = ix2 p q := ⟨j 0, j 1, eq_ix2 j⟩
  have hp := p.isLt; have hq := q.isLt
  show ((outsAt0 m c t.val t.isLt).1 (ix2 p q) : EReal) = lin2 (xArr m c) (wArr m c) (bArr m c) (((cfg0.win 3).blk t).view.emb (ix2 p q))
  rw [out_closed m c t h1 p q]
  have he : ((cfg0.win 3).blk t).view.emb (ix2 p q) = ix2 (row8 (t.val / 16) p) (col (t.val / 4 % 4) q) :=
    funext fun a => Fin.ext (by
      match a with
      | ⟨0, _⟩ => show win0_3.index t (0 : Fin 2) * 1024 + 1 * p.val = (1024 * (t.val / 16) + p.val) % 8192; rw [e5]; omega
      | ⟨1, _⟩ => show win0_3.index t (1 : Fin 2) * 1024 + 1 * q.val = (1024 * (t.val / 4 % 4) + q.val) % 4096; rw [e6]; omega)
  rw [he]
  rfl

/-- An index of the result array is in point `t`'s tile iff each coordinate is in the tile's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v10).slice (win0_3.rect t)).set ↔ _
  rw [View.set_slice_whole, Rect.mem_set_unit]
  exact Iff.rfl

/-- The point that writes (r, o): the last k-step of row-tile `r / 1024` and column-tile `o / 1024`. -/
def pointOf (i : S8192x4096.Idx) : Fin cfg0.N :=
  ⟨16 * ((i 0).val / 1024) + 4 * ((i 1).val / 1024) + 3, by
    have h0 : (i 0).val < 8192 := (i 0).isLt
    have h1 : (i 1).val < 4096 := (i 1).isLt
    rw [show cfg0.N = 128 from N_0]; omega⟩

/-- Every index of the result array is in a tile some last k-step writes back. -/
theorem cover (i : S8192x4096.Idx) :
    ∃ t : Fin cfg0.N, (cfg0.win 3).flush t = true ∧ i ∈ ((cfg0.win 3).blk t).view.set := by
  have h0 : (i 0).val < 8192 := (i 0).isLt
  have h1 : (i 1).val < 4096 := (i 1).isLt
  have hv : (pointOf i).val = 16 * ((i 0).val / 1024) + 4 * ((i 1).val / 1024) + 3 := rfl
  obtain ⟨-, -, -, -, -, e5, e6⟩ := idx_facts (pointOf i)
  refine ⟨pointOf i, (flush0_3 (pointOf i)).mpr (by rw [hv]; omega), ?_⟩
  rw [mem_blk]
  intro a
  match a with
  | ⟨0, _⟩ =>
    show win0_3.index (pointOf i) (0 : Fin 2) * 1024 ≤ (i 0).val ∧ (i 0).val < win0_3.index (pointOf i) (0 : Fin 2) * 1024 + 1024
    rw [e5, hv]; omega
  | ⟨1, _⟩ =>
    show win0_3.index (pointOf i) (1 : Fin 2) * 1024 ≤ (i 1).val ∧ (i 1).val < win0_3.index (pointOf i) (1 : Fin 2) * 1024 + 1024
    rw [e6, hv]; omega

/-- So the call's result array ends holding the linear layer on the flattened x. -/
theorem final (c : Dev nD) : (dats m 0 c).arrAt 3 cfg0.N = lin2 (xArr m c) (wArr m c) (bArr m c) :=
  (dats m 0 c).arrAt_eq_of_cover 3 (lin2 (xArr m c) (wArr m c) (bArr m c)) (flushed_eq m c) cover

/-! ## The program's result: the reshape after the call -/

/-- What the program returns, per device. -/
def result (c : Dev nD) : S4x2048x4096.Idx → EReal :=
  shapeCast S4x2048x4096 (lin2 (xArr m c) (wArr m c) (bArr m c)) shapeCasts_S8192x4096_S4x2048x4096

theorem tail_eq (c : Dev nD) :
    Pipeline.afterTail₀ cfgs (dats m) 0 (V0 m) [hostOps1] c main_v11 = result m c := by
  unfold Pipeline.afterTail₀
  show StableHlo.after hostOps1 _ (Proc.devRef .tc main_v11) = _
  after_results
  funext i
  exact congrFun (congrArg (fun z => shapeCast S4x2048x4096 z shapeCasts_S8192x4096_S4x2048x4096)
    ((Pipeline.withArrays_arr spec0 launch0.win.arr_inj c _ _ 3).trans (final m c))) i

/-- THE RUN, READ: every weakly fair execution ends with the result buffer at `result` and the four arguments as launched. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

/-! ## The result is the linear layer of the arguments -/

/-- Row `2048 b + s` of the flattened x is row (b, s) of x. -/
theorem xArr_apply (c : Dev nD) (b : Fin 4) (s : Fin 2048) (k : Fin 4096) (r : Fin 8192) (hr : r.val = 2048 * b.val + s.val) :
    xArr m c (ix2 r k) = m ((c.tc : Thread nD τ).loc main_arg0) (ix3 b s k) := by
  show V m c main_v9 (ix2 r k) = _
  rw [found_x m c]
  exact shapeCast_apply _ shapeCasts_S4x2048x4096_S8192x4096 (ix2 r k) (ix3 b s k) (by
    rw [Shape.rowMajor_val_three, Shape.rowMajor_val_two]
    show (b.val * 2048 + s.val) * 4096 + k.val = r.val * 4096 + k.val
    rw [hr]; ring)

/-- What the program returns is the linear layer of x, the reconstructed weight matrix and the bias. -/
theorem result_eq (c : Dev nD) :
    result m c = linear (m ((c.tc : Thread nD τ).loc main_arg0)) (wArr m c) (m ((c.tc : Thread nD τ).loc main_arg3)) := by
  funext i
  obtain ⟨b, s, o, rfl⟩ : ∃ (b : Fin 4) (s : Fin 2048) (o : Fin 4096), i = ix3 b s o := ⟨i 0, i 1, i 2, eq_ix3 i⟩
  have hb := b.isLt; have hs := s.isLt
  unfold result
  rw [shapeCast_apply _ shapeCasts_S8192x4096_S4x2048x4096 (ix3 b s o)
    (ix2 (⟨2048 * b.val + s.val, by omega⟩ : Fin 8192) o) (by
      rw [Shape.rowMajor_val_two, Shape.rowMajor_val_three]
      show (2048 * b.val + s.val) * 4096 + o.val = (b.val * 2048 + s.val) * 4096 + o.val
      ring)]
  rw [linear_apply]
  show (∑ k : Fin 4096, xArr m c (ix2 _ k) * wArr m c (ix2 o k)) + bArr m c (ix1 o) = _
  rw [show bArr m c = m ((c.tc : Thread nD τ).loc main_arg3) from V_main_arg3 m c]
  refine congrArg (· + m ((c.tc : Thread nD τ).loc main_arg3) (ix1 o)) (Finset.sum_congr rfl fun k _ => ?_)
  rw [xArr_apply m c b s k _ rfl]

end Cert.KernelIdeal.Result

end
-- ==== Proof.RefSide.lean ====
/-
  The reference, read: jnp's einsum 'bsi,oi->bso' of x with the reconstructed weight matrix, plus the bias broadcast
  over the leading axes, is the linear layer of `Linear.lean` — with the weight matrix whatever the reference's
  codebook lookup and its two reshapes produce (kept as one term: the kernel looks the same rows up).
-/
import proofs.«154323_j56427280335117_1_alg».proof.Proof.Gen.ReferenceIdeal.Read
import proofs.«154323_j56427280335117_1_alg».proof.Proof.Linear

noncomputable section

open Idealize.ShloMosaic Idealize.ShloMosaic.ValueIdx

namespace Cert.ReferenceIdeal.RefSide

open Cert.ReferenceIdeal Cert.ReferenceIdeal.Read Cert.Linear

/-- The contraction reads x along its last axis and the weight matrix along ITS last axis, at the output's row. -/
theorem lidx_eq (i : S4x2048x4096.Idx) (k : Fin 4096) : lidx_main_v9 i k = ix3 (i 0) (i 1) k :=
  funext fun a => Fin.ext (by match a with | ⟨0, _⟩ => rfl | ⟨1, _⟩ => rfl | ⟨2, _⟩ => rfl)
theorem ridx_eq (i : S4x2048x4096.Idx) (k : Fin 4096) : ridx_main_v9 i k = ix2 (i 2) k :=
  funext fun a => Fin.ext (by match a with | ⟨0, _⟩ => rfl | ⟨1, _⟩ => rfl)
/-- The bias, broadcast in two steps, is read at the output's last coordinate. -/
theorem bidx_eq (i : S4x2048x4096.Idx) : idx_main_v10 (idx_main_v11 i) = ix1 (i 2) :=
  funext fun a => Fin.ext (by match a with | ⟨0, _⟩ => rfl)

/-- The reference's result is the linear layer of x, its own reconstructed weight matrix, and the bias. -/
theorem result_eq (x0 : S4x2048x4096.Idx → EReal) (x1 : S4096x8.Idx → EReal) (x2 : S2097152.Idx → BitVec 32)
    (x3 : S4096.Idx → EReal) :
    val_main_v12 (F := Ideal) x0 x1 x2 x3 = linear x0 (val_main_v8 (F := Ideal) x1 x2) x3 := by
  funext i
  rw [val_main_v12_apply, val_main_v9_apply, val_main_v11_apply, val_main_v10_apply, bidx_eq]
  simp only [lidx_eq, ridx_eq]
  rfl

end Cert.ReferenceIdeal.RefSide

end
-- ==== Proof.lean ====
/-
  A linear layer whose weight matrix is reconstructed from a codebook:  out = x @ Wᵀ + bias  with
  W = reshape (codebook[indices]) : [4096, 4096],  x : [4, 2048, 4096],  bias : [4096].

  The kernel narrows the codebook to bf16 before the lookup (the identity on values over the extended reals), looks
  the rows up at the indices exactly as the reference does (a negative index counted from the end, then the host's
  gather), lays the lookup out as [4096, 4096] in one reshape where the reference takes two, flattens x to
  [8192, 4096], and computes the product tile by tile on an 8 × 4 × 4 grid: for each output tile a 1024 × 1024
  accumulator is zeroed at the first of four k-steps, each k-step adds the product of an x tile with the transposed
  weight tile, and the last k-step adds the bias row and writes the tile out; the result is reshaped to
  [4, 2048, 4096]. The reference contracts x with W along the last axis of both in one einsum and adds the
  broadcast bias.

  Both are  (b, s, o) ↦ ∑ᵢ x (b, s, i) · W (o, i) + bias o  (`Linear.lean`). The kernel's side is the running sum
  over k-tiles (`Accum.lean`, by induction on the grid point, over the case values of `Steps.lean` and the element
  arithmetic of `Arith.lean`), regrouped into one sum over the 4096 columns by associativity and commutativity of
  addition alone (`TiledSum.lean`), read off the result array and through the final reshape (`Result.lean`). The
  reference's side is its operations read one at a time (`RefSide.lean`). The two weight matrices are one function of
  the codebook and the indices (`weights_eq` below): the same rows at the same row-major positions.
  No step needs the inputs to be finite, so the precondition is never opened; the index input may be anything.
-/
import proofs.«154323_j56427280335117_1_alg».proof.Defs
import proofs.«154323_j56427280335117_1_alg».proof.Proof.Gen.Kernel
import proofs.«154323_j56427280335117_1_alg».proof.Proof.Gen.Kernel.Frame
import proofs.«154323_j56427280335117_1_alg».proof.Proof.Gen.KernelIdeal
import proofs.«154323_j56427280335117_1_alg».proof.Proof.Gen.KernelIdeal.Frame
import proofs.«154323_j56427280335117_1_alg».proof.Proof.Gen.ReferenceIdeal
import proofs.«154323_j56427280335117_1_alg».proof.Proof.Gen.ReferenceIdeal.Run
import proofs.«154323_j56427280335117_1_alg».proof.Proof.Gen.ReferenceIdeal.Read
import proofs.«154323_j56427280335117_1_alg».proof.Proof.Gen.Pre_finite_inputs
import proofs.«154323_j56427280335117_1_alg».proof.Proof.Result
import proofs.«154323_j56427280335117_1_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's weight matrix and the reference's are the same function of the codebook and the indices: entry
    (o, i) of either is entry `(4096 o + i) % 8` of the looked-up row number `(4096 o + i) / 8`. -/
theorem weights_eq (x1 : Cert.KernelIdeal.S4096x8.Idx → EReal) (x2 : Cert.KernelIdeal.S2097152.Idx → BitVec 32) :
    (Cert.KernelIdeal.Result.weights (F := Ideal) x1 x2 : Cert.KernelIdeal.S4096x4096.Idx → EReal)
      = Cert.ReferenceIdeal.Read.val_main_v8 (F := Ideal) x1 x2 := by
  funext i
  have h0 : (i 0).val < 4096 := (i 0).isLt
  have h1 : (i 1).val < 4096 := (i 1).isLt
  rw [Cert.ReferenceIdeal.Read.val_main_v8_apply, Cert.ReferenceIdeal.Read.val_main_v7_apply]
  unfold Cert.KernelIdeal.Result.weights
  rw [shapeCast_apply _ _ i (Cert.ReferenceIdeal.Read.idx_main_v7 (Cert.ReferenceIdeal.Read.idx_main_v8 i)) (by
    rw [Shape.rowMajor_val_two, Shape.rowMajor_val_two]
    show ((i 0).val * 4096 + (i 1).val) / 8 * 8 + ((i 0).val * 4096 + (i 1).val) % 8 = (i 0).val * 4096 + (i 1).val
    omega)]
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals the kernel's result and the reference's are the linear layer of the same x, the same
    weight matrix and the same bias. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Result.result m c
  rw [Cert.KernelIdeal.Result.result_eq m c,
    show Cert.KernelIdeal.Accum.wArr m c = Cert.ReferenceIdeal.Read.val_main_v8 (F := Ideal) _ _ from
      (Cert.KernelIdeal.Result.found_w m c).trans (weights_eq _ _),
    ← Cert.ReferenceIdeal.RefSide.result_eq, (hagree c).1, (hagree c).2.1, (hagree c).2.2.1, (hagree c).2.2.2]
  exact Cert.ReferenceIdeal.Read.val_main_v12_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
